-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8192x4096 .f32) (main_arg1 : FVec F S4096x4096 .f32) (main_arg2 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S1 : Shape := ⟨1, ![1]⟩
abbrev S1x1 : Shape := ⟨2, ![1, 1]⟩
abbrev S256x4096 : Shape := ⟨2, ![256, 4096]⟩
abbrev S4096x512 : Shape := ⟨2, ![4096, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1, .f32⟩
  | .hbm, ⟨3, _⟩ => ⟨S1x1, .f32⟩
  | .hbm, ⟨4, _⟩ => ⟨S1x1, .f32⟩
  | .hbm, ⟨5, _⟩ => ⟨S1, .f32⟩
  | .local _ .vmem, ⟨0, _⟩ => ⟨S256x4096, .f32⟩
  | .local _ .vmem, ⟨1, _⟩ => ⟨S256x4096, .f32⟩
  | .local _ .vmem, ⟨2, _⟩ => ⟨S4096x512, .f32⟩
  | .local _ .vmem, ⟨3, _⟩ => ⟨S4096x512, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let arg1 : BitVec 32 := BitVec.ofNat 32 (i 1).val
  let c31_i32 : BitVec 32 := 31#32
  let v20 : BitVec 1 := Scalar.cmpi .eq arg1 c31_i32
  let v21 : BitVec 1 := Scalar.andi v19 v20
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  reduces_S256x512_S256 : S256x512.Reduces [1] S256
  shapeCasts_S256_S256x1 : S256.ShapeCasts S256x1
  reduces_S256x1_S1 : S256x1.Reduces [0] S1
  shapeCasts_S1x1_S1 : S1x1.ShapeCasts S1
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1, .f32⟩
  | .hbm, ⟨3, _⟩ => ⟨S8192x4096, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  bcast_S_S1 : S_.BroadcastsInDim S1 (![] : Fin 0 → Fin S1.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.TileSum.lean ====
/-
  The arithmetic the two programs share, with no program in sight.

  `L` is an 8192 × 4096 array and `W` a 4096 × 4096 array of extended reals. Entry (r, n) of their product is the
  sum over k of L(r, k) · W(k, n), and the quantity both programs compute is the sum of ALL entries of the product.

  One program adds the entries up in one sweep. The other cuts the product into 8 × 32 tiles of 256 rows by 512
  columns, visits the tiles column tile by column tile (point t of the walk is column tile t / 32, row tile t % 32),
  adds a tile's 256 × 512 entries into one number, and keeps a running sum of those numbers. The extended reals
  under addition are a commutative monoid (an infinity changes no bracketing or order of a sum), so the running sum
  after the last tile is the sum of all entries: the tiles partition the rows and the columns, and a finite sum may be
  taken in any grouping and order. No finiteness of the entries is used.
-/
import Idealize.ShloMosaic.Lib.ValueIdx
import Idealize.ShloMosaic.PureOps.Ideal.Laws

noncomputable section

open scoped BigOperators

namespace Cert.TileSum

open Idealize.ShloMosaic Idealize.ShloMosaic.ValueIdx

/-- The left factor's entries. -/
abbrev MatL := (⟨2, ![8192, 4096]⟩ : Shape).Idx → EReal
/-- The right factor's entries. -/
abbrev MatW := (⟨2, ![4096, 4096]⟩ : Shape).Idx → EReal

variable (L : MatL) (W : MatW)

/-- Entry (r, n) of the product: row r of `L` against column n of `W`. -/
def entry (r : Fin 8192) (n : Fin 4096) : EReal := ∑ k : Fin 4096, L (ix2 r k) * W (ix2 k n)

/-- The sum of every entry of the product. -/
def grand : EReal := ∑ r : Fin 8192, ∑ n : Fin 4096, entry L W r n

/-- Row p of row tile i is row 256·i + p of `L`. -/
def rowOf (i : Fin 32) (p : Fin 256) : Fin 8192 := ⟨256 * i.val + p.val, by have := i.isLt; have := p.isLt; omega⟩
/-- Column q of column tile j is column 512·j + q of `W`. -/
def colOf (j : Fin 8) (q : Fin 512) : Fin 4096 := ⟨512 * j.val + q.val, by have := j.isLt; have := q.isLt; omega⟩

/-- What the tile at column tile j and row tile i contributes: its 256 × 512 entries, rows outermost. -/
def tile (j : Fin 8) (i : Fin 32) : EReal := ∑ p : Fin 256, ∑ q : Fin 512, entry L W (rowOf i p) (colOf j q)

/-- The tile visited at point t: the walk runs through the 32 row tiles of a column tile before the next column tile. -/
def tileAt (t : Fin 256) : EReal :=
  tile L W ⟨t.val / 32, by have := t.isLt; omega⟩ ⟨t.val % 32, by have := t.isLt; omega⟩

/-- The running sum after point n: it starts from zero at the first point and takes each point's tile in turn. -/
def running : (n : ℕ) → n < 256 → EReal
  | 0, h => 0 + tileAt L W ⟨0, h⟩
  | n + 1, h => running n (Nat.lt_of_succ_lt h) + tileAt L W ⟨n + 1, h⟩

theorem running_zero (h : 0 < 256) : running L W 0 h = 0 + tileAt L W ⟨0, h⟩ := rfl

theorem running_succ (n : ℕ) (h : n + 1 < 256) :
    running L W (n + 1) h = running L W n (Nat.lt_of_succ_lt h) + tileAt L W ⟨n + 1, h⟩ := rfl

/-- The running sum after point n is the sum of the tiles visited so far. -/
theorem running_eq_sum : ∀ (n : ℕ) (h : n < 256),
    running L W n h = ∑ t : Fin (n + 1), tileAt L W ⟨t.val, lt_of_lt_of_le t.isLt h⟩
  | 0, h => by
    rw [running_zero, zero_add, Fin.sum_univ_one]
    rfl
  | n + 1, h => by
    rw [running_succ, running_eq_sum n (Nat.lt_of_succ_lt h), Fin.sum_univ_castSucc (n := n + 1)]
    rfl

/-- A sum over `a · b` consecutive positions, taken as `a` runs of `b`: position `b·i + p` is the p-th of run i. -/
theorem sum_runs {M : Type*} [AddCommMonoid M] (a b : ℕ) (f : Fin (a * b) → M) :
    ∑ x, f x = ∑ i : Fin a, ∑ p : Fin b, f (finProdFinEquiv (i, p)) := by
  rw [← Equiv.sum_comp finProdFinEquiv f, Fintype.sum_prod_type]

/-- The tiles, summed over the walk, are the tiles summed column tile by column tile. -/
theorem sum_tileAt : ∑ t : Fin 256, tileAt L W t = ∑ j : Fin 8, ∑ i : Fin 32, tile L W j i := by
  rw [show (∑ t : Fin 256, tileAt L W t) = ∑ t : Fin (8 * 32), tileAt L W t from rfl, sum_runs 8 32]
  refine Finset.sum_congr rfl fun j _ => Finset.sum_congr rfl fun i _ => ?_
  have hj := j.isLt
  have hi := i.isLt
  unfold tileAt
  congr 1 <;> apply Fin.ext
  · show (i.val + 32 * j.val) / 32 = j.val
    omega
  · show (i.val + 32 * j.val) % 32 = i.val
    omega

/-- The rows of `L` are the rows of its 32 row tiles. -/
theorem sum_rows {M : Type*} [AddCommMonoid M] (g : Fin 8192 → M) :
    ∑ r, g r = ∑ i : Fin 32, ∑ p : Fin 256, g (rowOf i p) := by
  rw [show (∑ r : Fin 8192, g r) = ∑ r : Fin (32 * 256), g r from rfl, sum_runs 32 256]
  refine Finset.sum_congr rfl fun i _ => Finset.sum_congr rfl fun p _ => ?_
  congr 1
  apply Fin.ext
  show p.val + 256 * i.val = 256 * i.val + p.val
  omega

/-- The columns of `W` are the columns of its 8 column tiles. -/
theorem sum_cols {M : Type*} [AddCommMonoid M] (g : Fin 4096 → M) :
    ∑ n, g n = ∑ j : Fin 8, ∑ q : Fin 512, g (colOf j q) := by
  rw [show (∑ n : Fin 4096, g n) = ∑ n : Fin (8 * 512), g n from rfl, sum_runs 8 512]
  refine Finset.sum_congr rfl fun j _ => Finset.sum_congr rfl fun q _ => ?_
  congr 1
  apply Fin.ext
  show q.val + 512 * j.val = 512 * j.val + q.val
  omega

/-- Every entry of the product lies in exactly one tile: the tiles' contributions add up to the sum of all entries. -/
theorem sum_tiles : ∑ j : Fin 8, ∑ i : Fin 32, tile L W j i = grand L W := by
  unfold grand tile
  rw [sum_rows (fun r => ∑ n : Fin 4096, entry L W r n)]
  -- on the right: row tile, row, then all columns; split the columns and bring the column tile outermost
  have h1 : ∀ (i : Fin 32) (p : Fin 256),
      ∑ n : Fin 4096, entry L W (rowOf i p) n = ∑ j : Fin 8, ∑ q : Fin 512, entry L W (rowOf i p) (colOf j q) :=
    fun i p => sum_cols (fun n => entry L W (rowOf i p) n)
  simp only [h1]
  rw [Finset.sum_comm]
  refine Finset.sum_congr rfl fun i _ => ?_
  rw [Finset.sum_comm]

/-- The running sum after the last point of the walk is the sum of every entry of the product. -/
theorem running_last (h : 255 < 256) : running L W 255 h = grand L W := by
  rw [running_eq_sum]
  exact (sum_tileAt L W).trans (sum_tiles L W)

end Cert.TileSum

end
-- ==== Proof.RefTotal.lean ====
/-
  The reference at the ideal values: one whole matrix product, every entry of it added to a zero start, and the
  one bias number added to that. Read at its single index the result is the sum of every entry of the product
  plus the bias: the product's entry (a, b) is the sum over k of L(a, k) · W(k, b), the total over the two-axis index
  set is the double sum over rows and columns, and the zero start adds nothing.
-/
import proofs.«182098_j80822694576321_1_alg».proof.Defs
import proofs.«182098_j80822694576321_1_alg».proof.Proof.Gen.ReferenceIdeal.Read
import proofs.«182098_j80822694576321_1_alg».proof.Proof.TileSum

noncomputable section

open scoped BigOperators

namespace Cert.RefTotal

open Idealize.ShloMosaic Idealize.ShloMosaic.ValueIdx Cert.ReferenceIdeal Cert.ReferenceIdeal.Read Cert.TileSum

/-- The left factor is read, for entry (a, b) of the product and contraction position k, at (a, k). -/
theorem lidx_eq (a : Fin 8192) (b k : Fin 4096) : lidx_main_v0 (ix2 a b) k = ix2 a k :=
  funext fun d => Fin.ext (by match d with | ⟨0, _⟩ => rfl | ⟨1, _⟩ => rfl)

/-- The right factor is read at (k, b). -/
theorem ridx_eq (a : Fin 8192) (b k : Fin 4096) : ridx_main_v0 (ix2 a b) k = ix2 k b :=
  funext fun d => Fin.ext (by match d with | ⟨0, _⟩ => rfl | ⟨1, _⟩ => rfl)

/-- The reference's result at its one index: the sum of all entries of the product, plus the bias there. -/
theorem result_apply (L : (⟨S8192x4096, .f32⟩ : BufTy).Contents (Elt Ideal)) (W : (⟨S4096x4096, .f32⟩ : BufTy).Contents (Elt Ideal))
    (bias : (⟨S1, .f32⟩ : BufTy).Contents (Elt Ideal)) (i : S1.Idx) :
    val_main_v3 (F := Ideal) L W bias i = grand L W + bias i := by
  rw [val_main_v3_apply, val_main_v2_apply, val_main_v1_apply, val_main_cst_apply, sum_idx2]
  simp only [val_main_v0_apply, lidx_eq, ridx_eq, Ideal.addf_def, Ideal.ofBits_def, Ideal.ofBits_zero_f32, zero_add]
  rfl

end Cert.RefTotal

end
-- ==== Proof.Blocks.lean ====
/-
  The blocks the pipeline hands the body at each grid point, read as parts of the arrays the region finds.

  The grid is walked in 256 points. At point t the left factor's window is at row tile t % 32 (256 rows, every
  column), the right factor's at column tile t / 32 (every row, 512 columns), and the bias's one-element window does
  not move. So the total of the two blocks' product at t is the total of the product's tile at column tile t / 32 and
  row tile t % 32.
-/
import proofs.«182098_j80822694576321_1_alg».proof.Proof.Gen.KernelIdeal.Frame
import proofs.«182098_j80822694576321_1_alg».proof.Proof.TileSum
import Idealize.ShloMosaic.Lib.Pipeline.Value
import Idealize.ShloMosaic.Lib.ValueIdx

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.TileSum

variable (m : (ℓ : Loc nD τ sig) → Buf (Elt Ideal) ℓ) (ρ : Dev nD → PrngReg)

/-! ## The arrays the region finds, and the blocks its windows hand the body -/

/-- The left factor, the right factor and the reshaped bias as the region finds them. -/
abbrev Larr (c : Dev nD) : Vec Ideal S8192x4096 .f32 := V m c main_arg0
abbrev Warr (c : Dev nD) : Vec Ideal S4096x4096 .f32 := V m c main_arg1
abbrev Barr (c : Dev nD) : Vec Ideal S1x1 .f32 := V m c main_v0
/-- The blocks of the three at point `t`. -/
abbrev lblk (c : Dev nD) (t : Fin cfg0.N) : Vec Ideal S256x4096 .f32 := iblk m c 0 t
abbrev wblk (c : Dev nD) (t : Fin cfg0.N) : Vec Ideal S4096x512 .f32 := iblk m c 1 t
abbrev bblk (c : Dev nD) (t : Fin cfg0.N) : Vec Ideal S1x1 .f32 := iblk m c 2 t

/-- Point t takes row tile t % 32 of the left factor, all of its columns; -/
theorem idx_L : ∀ t : Fin cfg0.N, win0_0.index t 0 = t.val % 32 ∧ win0_0.index t 1 = 0 :=
  (by decide +kernel : ∀ t : Fin grid0.N, win0_0.index t 0 = t.val % 32 ∧ win0_0.index t 1 = 0)
/-- column tile t / 32 of the right factor, all of its rows; -/
theorem idx_W : ∀ t : Fin cfg0.N, win0_1.index t 0 = 0 ∧ win0_1.index t 1 = t.val / 32 :=
  (by decide +kernel : ∀ t : Fin grid0.N, win0_1.index t 0 = 0 ∧ win0_1.index t 1 = t.val / 32)
/-- and the one block of the bias. -/
theorem idx_B : ∀ t : Fin cfg0.N, win0_2.index t 0 = 0 ∧ win0_2.index t 1 = 0 :=
  (by decide +kernel : ∀ t : Fin grid0.N, win0_2.index t 0 = 0 ∧ win0_2.index t 1 = 0)

theorem lblk_apply (c : Dev nD) (t : Fin cfg0.N) (ht : t.val % 32 < 32) (p : Fin 256) (k : Fin 4096) :
    lblk m c t (ix2 p k) = Larr m c (ix2 (rowOf ⟨t.val % 32, ht⟩ p) k) := by
  unfold lblk iblk
  rw [View.read_apply]
  show V m c main_arg0 _ = V m c main_arg0 _
  congr 1
  funext a
  apply Fin.ext
  match a with
  | ⟨0, _⟩ => show win0_0.index t 0 * 256 + 1 * p.val = 256 * (t.val % 32) + p.val; rw [(idx_L t).1]; omega
  | ⟨1, _⟩ => show win0_0.index t 1 * 4096 + 1 * k.val = k.val; rw [(idx_L t).2]; omega

theorem wblk_apply (c : Dev nD) (t : Fin cfg0.N) (ht : t.val / 32 < 8) (k : Fin 4096) (q : Fin 512) :
    wblk m c t (ix2 k q) = Warr m c (ix2 k (colOf ⟨t.val / 32, ht⟩ q)) := by
  unfold wblk iblk
  rw [View.read_apply]
  show V m c main_arg1 _ = V m c main_arg1 _
  congr 1
  funext a
  apply Fin.ext
  match a with
  | ⟨0, _⟩ => show win0_1.index t 0 * 4096 + 1 * k.val = k.val; rw [(idx_W t).1]; omega
  | ⟨1, _⟩ => show win0_1.index t 1 * 512 + 1 * q.val = 512 * (t.val / 32) + q.val; rw [(idx_W t).2]; omega

theorem bblk_apply (c : Dev nD) (t : Fin cfg0.N) (u v : Fin 1) : bblk m c t (ix2 u v) = Barr m c (ix2 u v) := by
  unfold bblk iblk
  rw [View.read_apply]
  show V m c main_v0 _ = V m c main_v0 _
  congr 1
  funext a
  apply Fin.ext
  match a with
  | ⟨0, _⟩ => show win0_2.index t 0 * 1 + 1 * u.val = u.val; rw [(idx_B t).1]; omega
  | ⟨1, _⟩ => show win0_2.index t 1 * 1 + 1 * v.val = v.val; rw [(idx_B t).2]; omega

/-- The total of the two blocks at point t is the total of the product's tile visited at t. -/
theorem blocks_total (c : Dev nD) (t : Fin cfg0.N) (ht : t.val < 256) :
    ∑ p : Fin 256, ∑ q : Fin 512, ∑ k : Fin 4096, lblk m c t (ix2 p k) * wblk m c t (ix2 k q)
      = tileAt (Larr m c) (Warr m c) ⟨t.val, ht⟩ := by
  unfold tileAt tile entry
  refine Finset.sum_congr rfl fun p _ => Finset.sum_congr rfl fun q _ => Finset.sum_congr rfl fun k _ => ?_
  rw [lblk_apply m c t (by omega) p k, wblk_apply m c t (by omega) k q]

end Cert.KernelIdeal.Blocks

end
-- ==== Proof.Visits.lean ====
/-
  What each kind of visit leaves behind, read off the body's stores.

  The body's visits come in three kinds. The FIRST visit of the walk clears the running cell to zero and then adds its
  tile's total; a MIDDLE visit adds its tile's total to what the visit before left; the LAST visit does the same and
  then stores the cell plus the bias out. Each store covers its whole one-element buffer, so what a buffer holds after
  a visit is the value of the last store into it, as a function of the blocks the visit loaded.
-/
import proofs.«182098_j80822694576321_1_alg».proof.Proof.Gen.KernelIdeal.Frame
import Idealize.ShloMosaic.Lib.Pipeline.Value
import Idealize.ShloMosaic.Lib.Tactic

noncomputable section

namespace Cert.KernelIdeal.Visits

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A middle visit leaves, in the running cell that held `acc`, the accumulated value of its two blocks over `acc`. -/
theorem cell_middle (c : Dev nD) (i : grid0.Coords) (a2 : Memref sig .tc .vmem S256x4096 .f32) (h2 : a2.IsWhole) (a3 : Memref sig .tc .vmem S4096x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 : Vec F S256x4096 .f32) (x1 : Vec F S4096x512 .f32) (x2 : Vec F S1x1 .f32) (acc : Vec F S1x1 .f32) :
    sout0_B_0 c i a2 h2 a3 h3 a4 h4 a5 h5 a6 h6 hc0 hc1 x0 x1 x2 acc = k0_pay2 x0 x1 acc := by
  unfold sout0_B_0
  rw [View.read_writes_eq_canon _ _ _ (scover0_B_0 c i a2 h2 a3 h3 a4 h4 a5 h5 a6 h6 hc0 hc1 x0 x1 x2 acc)]
  unfold kernelRun0_B
  dsimp only
  sl_unfold_words
  rw [View.canon_unit_zero hz]
  simp only [View.readAt_eq_ld, h2.read_unread, h3.read_unread, h6.read_unread, View.ld_unit_zero (S := S256x4096) hz,
    View.ld_unit_zero (S := S4096x512) hz, View.ld_unit_zero (S := S1x1) hz]

/-- The first visit clears the cell and leaves the accumulated value of its two blocks over the cleared cell. -/
theorem cell_first (c : Dev nD) (i : grid0.Coords) (a2 : Memref sig .tc .vmem S256x4096 .f32) (h2 : a2.IsWhole) (a3 : Memref sig .tc .vmem S4096x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 : Vec F S256x4096 .f32) (x1 : Vec F S4096x512 .f32) (x2 : Vec F S1x1 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz]
  simp only [View.readCov_unit_zero (S := S1x1) _ hz, View.readAt_eq_ld, h2.read_unread, h3.read_unread,
    View.ld_unit_zero (S := S256x4096) hz, View.ld_unit_zero (S := S4096x512) hz]

/-- The last visit leaves the same in the cell as a middle one, -/
theorem cell_last (c : Dev nD) (i : grid0.Coords) (a2 : Memref sig .tc .vmem S256x4096 .f32) (h2 : a2.IsWhole) (a3 : Memref sig .tc .vmem S4096x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 : Vec F S256x4096 .f32) (x1 : Vec F S4096x512 .f32) (x2 : Vec F S1x1 .f32) (acc : Vec F S1x1 .f32) :
    sout0_C_0 c i a2 h2 a3 h3 a4 h4 a5 h5 a6 h6 hc0 hc1 x0 x1 x2 acc = k0_pay2 x0 x1 acc := by
  unfold sout0_C_0
  rw [View.read_writes_eq_canon _ _ _ (scover0_C_0 c i a2 h2 a3 h3 a4 h4 a5 h5 a6 h6 hc0 hc1 x0 x1 x2 acc)]
  unfold kernelRun0_C
  dsimp only
  sl_unfold_words
  rw [View.canon_unit_zero hz]
  simp only [View.readAt_eq_ld, h2.read_unread, h3.read_unread, h6.read_unread, View.ld_unit_zero (S := S256x4096) hz,
    View.ld_unit_zero (S := S4096x512) hz, View.ld_unit_zero (S := S1x1) hz]

/-- and stores out that value plus the bias block `x2`. -/
theorem out_last (c : Dev nD) (i : grid0.Coords) (a2 : Memref sig .tc .vmem S256x4096 .f32) (h2 : a2.IsWhole) (a3 : Memref sig .tc .vmem S4096x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 : Vec F S256x4096 .f32) (x1 : Vec F S4096x512 .f32) (x2 : Vec F S1x1 .f32) (acc : Vec F S1x1 .f32) :
    out0_C_3 c i a2 h2 a3 h3 a4 h4 a5 h5 a6 h6 hc0 hc1 x0 x1 x2 acc = k0_pay3 (k0_pay2 x0 x1 acc) x2 := by
  unfold out0_C_3
  rw [View.read_writes_eq_canon _ _ _ (cover0_C_3 c i a2 h2 a3 h3 a4 h4 a5 h5 a6 h6 hc0 hc1 x0 x1 x2 acc)]
  unfold kernelRun0_C
  dsimp only
  sl_unfold_words
  rw [View.canon_unit_zero hz]
  simp only [View.readCov_unit_zero (S := S1x1) _ hz, View.readAt_eq_ld, h2.read_unread, h3.read_unread, h4.read_unread,
    h6.read_unread, View.ld_unit_zero (S := S256x4096) hz, View.ld_unit_zero (S := S4096x512) hz,
    View.ld_unit_zero (S := S1x1) hz]

end Cert.KernelIdeal.Visits

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.TilePayload.lean ====
/-
  What one visit of the body adds to the running number, at the ideal values.

  From a 256 × 4096 block `x0` of the left factor and a 4096 × 512 block `x1` of the right one the body forms their
  product into a zero start (changing the operands' float format first, which is the identity on the ideal
  values), sums each of its 256 rows over the 512 lanes, sums the 256 row sums, and adds that one number to what the
  running cell held. So the cell ends at its old value plus the sum over the block's rows p, lanes q and contraction
  positions k of x0(p, k) · x1(k, q). On the last visit the cell's value plus the one bias number is what is stored out.
-/
import proofs.«182098_j80822694576321_1_alg».proof.Proof.Gen.KernelIdeal.Skeleton
import proofs.«182098_j80822694576321_1_alg».proof.Proof.LibDot
import Idealize.ShloMosaic.Lib.ValueIdx
import Idealize.ShloMosaic.Lib.ValueLayout
import Idealize.ShloMosaic.PureOps.Ideal.Laws

noncomputable section

open scoped BigOperators

namespace Cert.TilePayload

open Idealize.ShloMosaic Idealize.ShloMosaic.ValueIdx Cert.KernelIdeal Cert.KernelIdeal.Gen

/-- A length-`a` vector recast as an `a × 1` column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of row p of a 256 × 512 array. -/
theorem laneSum_apply (v : FVec Ideal S256x512 .f32) (h : S256x512.Reduces [1] S256) (hφ : FKind.Formats .f32)
    (hacc : (0x00000000#32 : BitVec 32) = FKind.add.neutral .f32 hφ) (p : Fin 256) :
    multiReduction .add [1] S256 v 0x00000000#32 h hφ hacc (ix1 p) = ∑ q : Fin 512, v (ix2 p q) := by
  refine (Ideal.multiReduction_add_single v 0x00000000#32 h hφ hacc (ix1 p)).trans ?_
  refine Finset.sum_congr rfl fun q _ => congrArg v ?_
  funext c; apply Fin.ext
  fin_cases c <;> rfl

/-- The sum down the one column of a 256 × 1 array. -/
theorem colSum_apply (v : FVec Ideal S256x1 .f32) (h : S256x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ p : Fin 256, v (ix2 p u) := by
  refine (Ideal.multiReduction_add_single v 0x00000000#32 h hφ hacc (ix1 u)).trans ?_
  refine Finset.sum_congr rfl fun p _ => congrArg v ?_
  funext c; apply Fin.ext
  fin_cases c <;> rfl

/-- The value the body stores back into the running cell: the cell's old value plus the block pair's total. -/
theorem accumulated_apply (x0 : Vec Ideal S256x4096 .f32) (x1 : Vec Ideal S4096x512 .f32) (acc : Vec Ideal S1x1 .f32) :
    k0_pay2 (F := Ideal) x0 x1 acc (ix2 (0 : Fin 1) (0 : Fin 1))
      = acc (ix2 (0 : Fin 1) (0 : Fin 1)) + ∑ p : Fin 256, ∑ q : Fin 512, ∑ k : Fin 4096, x0 (ix2 p k) * x1 (ix2 k q) := by
  unfold k0_pay2
  dsimp only
  refine (congrFun (shapeCast_self _ _) _).trans ?_
  show acc (ix2 (0 : Fin 1) (0 : Fin 1)) + _ = _
  congr 1
  refine (shapeCast_a_1a_apply _ _ (0 : Fin 1) (0 : Fin 1)).trans ?_
  refine (colSum_apply _ _ _ _ (0 : Fin 1)).trans ?_
  refine Finset.sum_congr rfl fun p _ => ?_
  refine (shapeCast_a_a1_apply _ _ p (0 : Fin 1)).trans ?_
  refine (laneSum_apply _ _ _ _ p).trans ?_
  refine Finset.sum_congr rfl fun q _ => ?_
  exact Cert.LibDot.matmul_10_zero_apply dot_S256x4096_S4096x512_S256x512_1_0_0_1_n_n rfl rfl rfl rfl rfl rfl none _ _ p q

/-- The zero the first visit puts into the running cell. -/
theorem reset_apply : k0_pay1 (F := Ideal) (ix2 (0 : Fin 1) (0 : Fin 1)) = 0 := by
  unfold k0_pay1
  refine (congrFun (shapeCast_self _ _) _).trans ?_
  show Ideal.ofBits .f32 0x00000000#32 = 0
  exact Ideal.ofBits_zero_f32

/-- The value the last visit stores out: the running cell plus the bias. -/
theorem biased_apply (acc b : Vec Ideal S1x1 .f32) :
    k0_pay3 (F := Ideal) acc b (ix2 (0 : Fin 1) (0 : Fin 1)) = acc (ix2 (0 : Fin 1) (0 : Fin 1)) + b (ix2 (0 : Fin 1) (0 : Fin 1)) := by
  unfold k0_pay3
  show acc _ + shapeCast S1x1 b shapeCasts_S1x1_S1x1 _ = _
  rw [shapeCast_self]

end Cert.TilePayload

end
-- ==== Proof.Cell.lean ====
/-
  The running cell, point by point.

  The first point clears the cell and adds its tile's total; every later point adds its tile's total to what the point
  before left; the last point also leaves the output block at the cell's new value plus the bias. By induction on the
  point, the cell holds after point n the running sum of the tiles visited so far.
-/
import proofs.«182098_j80822694576321_1_alg».proof.Proof.Blocks
import proofs.«182098_j80822694576321_1_alg».proof.Proof.Visits
import proofs.«182098_j80822694576321_1_alg».proof.Proof.TilePayload

noncomputable section

open scoped BigOperators

namespace Cert.KernelIdeal.Cell

open Idealize.ShloMosaic Idealize.ShloMosaic.TcCoe Idealize.SL.Sem Idealize.ShloMosaic.ValueIdx
open Idealize.ShloMosaic.Pipeline (Dat)
open Cert.KernelIdeal Cert.KernelIdeal.Gen Cert.TileSum Cert.KernelIdeal.Blocks

variable (m : (ℓ : Loc nD τ sig) → Buf (Elt Ideal) ℓ) (ρ : Dev nD → PrngReg)

/-! ## The running cell, point by point -/

/-- The one index of a 1 × 1 array. -/
abbrev o : S1x1.Idx := ix2 (0 : Fin 1) (0 : Fin 1)

theorem idx_o (y : S1x1.Idx) : y = o := by
  funext a
  apply Fin.ext
  have h0 : (y 0 : ℕ) < 1 := (y 0).isLt
  have h1 : (y 1 : ℕ) < 1 := (y 1).isLt
  match a with
  | ⟨0, _⟩ => show (y 0 : ℕ) = 0; omega
  | ⟨1, _⟩ => show (y 1 : ℕ) = 0; omega

/-- At the first point the cell ends at the first tile's total over zero. -/
theorem cell_first (c : Dev nD) (t : Fin cfg0.N) (ht : t.val < 256) (h0 : t.val % 256 = 0) (h1 : ¬t.val % 256 = 255) :
    (outsAt0 m c t.val t.isLt).2 o = 0 + tileAt (Larr m c) (Warr m c) ⟨t.val, ht⟩ := by
  rw [outsAt0_A m c t h0 h1]
  dsimp only
  refine (congrFun (Visits.cell_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (lblk m c t) (wblk m c t) (bblk m c t)) o).trans ?_
  refine (TilePayload.accumulated_apply (lblk m c t) (wblk m c t) (k0_pay1 (F := Ideal))).trans ?_
  rw [TilePayload.reset_apply, blocks_total m c t ht]

/-- At a middle point it ends at what the point before left plus the tile's total. -/
theorem cell_middle (c : Dev nD) (t : Fin cfg0.N) (ht : t.val < 256) (h0 : ¬t.val % 256 = 0) (h1 : ¬t.val % 256 = 255) :
    (outsAt0 m c t.val t.isLt).2 o
      = (outsAt0 m c (t.val - 1) (Nat.lt_of_le_of_lt (Nat.sub_le _ _) t.isLt)).2 o + tileAt (Larr m c) (Warr m c) ⟨t.val, ht⟩ := by
  rw [outsAt0_B m c t h0 h1]
  dsimp only
  refine (congrFun (Visits.cell_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (lblk m c t) (wblk m c t) (bblk m c t) (outsAt0 m c (t.val - 1) (Nat.lt_of_le_of_lt (Nat.sub_le _ _) t.isLt)).2) o).trans ?_
  refine (TilePayload.accumulated_apply (lblk m c t) (wblk m c t) _).trans ?_
  rw [blocks_total m c t ht]

/-- At the last point likewise, -/
theorem cell_last (c : Dev nD) (t : Fin cfg0.N) (ht : t.val < 256) (h0 : ¬t.val % 256 = 0) (h1 : t.val % 256 = 255) :
    (outsAt0 m c t.val t.isLt).2 o
      = (outsAt0 m c (t.val - 1) (Nat.lt_of_le_of_lt (Nat.sub_le _ _) t.isLt)).2 o + tileAt (Larr m c) (Warr m c) ⟨t.val, ht⟩ := by
  rw [outsAt0_C m c t h0 h1]
  dsimp only
  refine (congrFun (Visits.cell_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (lblk m c t) (wblk m c t) (bblk m c t) (outsAt0 m c (t.val - 1) (Nat.lt_of_le_of_lt (Nat.sub_le _ _) t.isLt)).2) o).trans ?_
  refine (TilePayload.accumulated_apply (lblk m c t) (wblk m c t) _).trans ?_
  rw [blocks_total m c t ht]

/-- and the output block is left at the cell's new value plus the bias. -/
theorem out_last (c : Dev nD) (t : Fin cfg0.N) (h0 : ¬t.val % 256 = 0) (h1 : t.val % 256 = 255) :
    (outsAt0 m c t.val t.isLt).1 o = (outsAt0 m c t.val t.isLt).2 o + Barr m c o := by
  rw [outsAt0_C m c t h0 h1]
  dsimp only
  refine (congrFun (Visits.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (lblk m c t) (wblk m c t) (bblk m c t) (outsAt0 m c (t.val - 1) (Nat.lt_of_le_of_lt (Nat.sub_le _ _) t.isLt)).2) o).trans ?_
  refine (TilePayload.biased_apply _ (bblk m c t)).trans ?_
  rw [bblk_apply m c t 0 0]
  congr 1
  exact (congrFun (Visits.cell_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (lblk m c t) (wblk m c t) (bblk m c t) (outsAt0 m c (t.val - 1) (Nat.lt_of_le_of_lt (Nat.sub_le _ _) t.isLt)).2) o).symm

/-- After point n the cell holds the running sum of the tiles visited so far. -/
theorem cell_eq (c : Dev nD) : ∀ (n : ℕ) (hn : n < cfg0.N),
    (outsAt0 m c n hn).2 o = running (Larr m c) (Warr m c) n (lt_of_lt_of_eq hn N_0)
  | 0, hn => (cell_first m c ⟨0, hn⟩ (by show (0 : ℕ) < 256; omega) rfl (by show ¬(0 : ℕ) % 256 = 255; omega)).trans
      (running_zero _ _ _).symm
  | n + 1, hn => by
    have hN : n + 1 < 256 := lt_of_lt_of_eq hn N_0
    have h0 : ¬(⟨n + 1, hn⟩ : Fin cfg0.N).val % 256 = 0 := by dsimp only; omega
    rw [running_succ]
    by_cases h1 : (⟨n + 1, hn⟩ : Fin cfg0.N).val % 256 = 255
    · refine (cell_last m c ⟨n + 1, hn⟩ hN h0 h1).trans ?_
      show (outsAt0 m c n _).2 o + _ = _
      rw [cell_eq c n]
    · refine (cell_middle m c ⟨n + 1, hn⟩ hN h0 h1).trans ?_
      show (outsAt0 m c n _).2 o + _ = _
      rw [cell_eq c n]

end Cert.KernelIdeal.Cell

end
-- ==== Proof.Walk.lean ====
/-
  The idealized kernel's result.

  After the last grid point the running cell holds the sum of every entry of the product. Only the last point stores
  into the one-element output block and only there is the block written back; that block is the whole output array,
  which thus ends at the grand sum plus the bias. The host reshapes the one bias number to a 1 × 1 array before the
  region and the 1 × 1 result to a one-element array after it; neither moves a value.
-/
import proofs.«182098_j80822694576321_1_alg».proof.Proof.Cell
import Idealize.ShloMosaic.Lib.StableHlo.Run
import Idealize.ShloMosaic.Lib.ValueLayout
import Idealize.ShloMosaic.Lib.Tactic

noncomputable section

open scoped BigOperators

namespace Cert.KernelIdeal.Walk

open Idealize.ShloMosaic Idealize.ShloMosaic.TcCoe Idealize.SL.Sem Idealize.ShloMosaic.ValueIdx
open Idealize.ShloMosaic.Pipeline (Dat)
open Cert.KernelIdeal Cert.KernelIdeal.Gen Cert.TileSum Cert.KernelIdeal.Blocks Cert.KernelIdeal.Cell

variable (m : (ℓ : Loc nD τ sig) → Buf (Elt Ideal) ℓ) (ρ : Dev nD → PrngReg)

/-! ## The output array, and the result after the host's reshape -/

/-- What the 1 × 1 output array ends holding: the sum of every entry of the product, plus the bias. -/
def outVal (c : Dev nD) : Buf (Elt Ideal) ((c : Thread nD τ).loc main_v1) :=
  fun _ => grand (Larr m c) (Warr m c) + Barr m c o

/-- The running sum at the last point of the walk, whatever name the point has. -/
theorem running_at_last (L : MatL) (W : MatW) (n : ℕ) (h : n < 256) (hn : n = 255) : running L W n h = grand L W := by
  subst hn
  exact running_last L W h

/-- The output's one block does not move. -/
theorem idx_O : ∀ t : Fin cfg0.N, win0_3.index t 0 = 0 ∧ win0_3.index t 1 = 0 :=
  (by decide +kernel : ∀ t : Fin grid0.N, win0_3.index t 0 = 0 ∧ win0_3.index t 1 = 0)

/-- After the last point the output block holds the grand sum plus the bias. -/
theorem out_at_last (c : Dev nD) (t : Fin cfg0.N) (h1 : t.val % 256 = 255) :
    (outsAt0 m c t.val t.isLt).1 = outVal m c := by
  have hN : cfg0.N = 256 := N_0
  have hlt := t.isLt
  have ht : t.val = 255 := by omega
  have h0 : ¬t.val % 256 = 0 := by omega
  funext y
  rw [idx_o y, out_last m c t h0 h1]
  unfold outVal
  congr 1
  exact (cell_eq m c t.val t.isLt).trans (running_at_last _ _ _ _ ht)

/-- The one write-back, at the last point, writes it. -/
theorem flushed_eq (c : Dev nD) (t : Fin cfg0.N) (hf : (cfg0.win 3).flush t = true) :
    (dats m 0 c).flushed 3 t = ((cfg0.win 3).blk t).view.read (Elt Ideal) (outVal m c) := by
  have h1 : t.val % 256 = 255 := (flush0_3 t).mp hf
  show (cfg0.win 3).cut (grid0.coords t) ((dats m 0 c).after 3 t) = _
  rw [after0_3, out_at_last m c t h1]
  have hz' : (fun a => win0_3.index t a * main_v1.ty.shape.size a) = fun _ => 0 :=
    funext fun a => by
      match a with
      | ⟨0, _⟩ => show win0_3.index t 0 * _ = 0; rw [(idx_O t).1, Nat.zero_mul]
      | ⟨1, _⟩ => show win0_3.index t 1 * _ = 0; rw [(idx_O t).2, Nat.zero_mul]
  exact (Memref.read_access_unit_zero (Elt Ideal) main_v1 hz' (fun a => by rw [congrFun hz' a]; simp) (outVal m c)).symm

/-- The last point of the walk. -/
abbrev tLast : Fin cfg0.N := ⟨255, by rw [show cfg0.N = 256 from N_0]; omega⟩

/-- So the output array ends holding it: the last point's block is the whole array. -/
theorem final_out (c : Dev nD) : (dats m 0 c).arrAt 3 cfg0.N = outVal m c :=
  (dats m 0 c).arrAt_eq_of_cover 3 (outVal m c) (flushed_eq m c) fun i =>
    ⟨tLast, (flush0_3 tLast).mpr rfl, by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The bias as the region finds it is the argument's one number, reshaped. -/
theorem Barr_eq (c : Dev nD) : Barr m c o = m ((c : Thread nD τ).loc main_arg2) (ix1 (0 : Fin 1)) := by
  have e : (Barr m c : S1x1.Idx → EReal) = shapeCast S1x1 (m ((c : Thread nD τ).loc main_arg2)) shapeCasts_S1_S1x1 := by
    show StableHlo.after hostOps0 (fun b => m (c, b)) (Proc.devRef .tc main_v0) = _
    after_results
    rfl
  rw [e]
  exact shapeCast_a_1a_apply _ _ (0 : Fin 1) (0 : Fin 1)

/-- The one index of a one-element array. -/
theorem idx_o1 (i : S1.Idx) : i = ix1 (0 : Fin 1) := by
  funext a
  apply Fin.ext
  have h0 : (i 0 : ℕ) < 1 := (i 0).isLt
  match a with
  | ⟨0, _⟩ => show (i 0 : ℕ) = 0; omega

/-- The kernel's result: at its one index, the sum of every entry of the product of the two arguments plus the bias. -/
def result (c : Dev nD) : Buf (Elt Ideal) ((c : Thread nD τ).loc main_v2) :=
  fun i => grand (m ((c : Thread nD τ).loc main_arg0)) (m ((c : Thread nD τ).loc main_arg1)) + m ((c : Thread nD τ).loc main_arg2) i

/-- The host's reshape after the region hands the output array's one number on. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 3).trans (final_out m c)]
  funext i
  rw [idx_o1 i]
  refine (shapeCast_1a_a_apply _ _ (0 : Fin 1)).trans ?_
  unfold outVal result
  rw [Barr_eq]
  show grand (V m c main_arg0) (V m c main_arg1) + _ = _
  rw [V_main_arg0, V_main_arg1]

/-- Every weakly fair execution of the idealized kernel ends with that result and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Walk

end
-- ==== Proof.lean ====
/-
  The kernel against its reference: the sum of every entry of a matrix product, plus one bias number.

  The reference forms the 8192 × 4096 by 4096 × 4096 product whole, adds all of its entries to a zero start, and adds
  the bias. The kernel walks the product in 8 × 32 tiles of 256 rows by 512 columns; at each tile it forms the tile's
  product from a row block of the left factor and a column block of the right one (after a change of float format,
  which is the identity on the ideal values), totals it, and adds the total to a running cell that the first tile
  clears; after the last tile it stores the cell plus the bias. Over the extended reals both are the same finite sum of
  the same terms L(r, k) · W(k, n), grouped differently, and addition there is commutative and associative whatever
  infinities occur, so the two results are equal for all inputs; the inputs' finiteness is not used.

  The three frames: the kernel's two are the generated frame runs, the reference's is its generated run with the result
  dropped. The idealization rewrote nothing, so that conjunct is trivial. For the value: the kernel's result is read off
  its frame run (the running cell by induction on the grid point, the one write-back, the host reshape after it), the
  reference's off its run one operation at a time, and the regrouping law joins them.
-/
import proofs.«182098_j80822694576321_1_alg».proof.Defs
import proofs.«182098_j80822694576321_1_alg».proof.Proof.Gen.Kernel
import proofs.«182098_j80822694576321_1_alg».proof.Proof.Gen.Kernel.Skeleton
import proofs.«182098_j80822694576321_1_alg».proof.Proof.Gen.Kernel.Launch
import proofs.«182098_j80822694576321_1_alg».proof.Proof.Gen.Kernel.Points
import proofs.«182098_j80822694576321_1_alg».proof.Proof.Gen.Kernel.Frame
import proofs.«182098_j80822694576321_1_alg».proof.Proof.Gen.KernelIdeal
import proofs.«182098_j80822694576321_1_alg».proof.Proof.Gen.KernelIdeal.Skeleton
import proofs.«182098_j80822694576321_1_alg».proof.Proof.Gen.KernelIdeal.Launch
import proofs.«182098_j80822694576321_1_alg».proof.Proof.Gen.KernelIdeal.Points
import proofs.«182098_j80822694576321_1_alg».proof.Proof.Gen.KernelIdeal.Frame
import proofs.«182098_j80822694576321_1_alg».proof.Proof.Gen.ReferenceIdeal
import proofs.«182098_j80822694576321_1_alg».proof.Proof.Gen.ReferenceIdeal.Run
import proofs.«182098_j80822694576321_1_alg».proof.Proof.Gen.ReferenceIdeal.Read
import proofs.«182098_j80822694576321_1_alg».proof.Proof.Gen.Pre_finite_inputs
import proofs.«182098_j80822694576321_1_alg».proof.Proof.RefTotal
import proofs.«182098_j80822694576321_1_alg».proof.Proof.Walk
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the sum of every entry of the product plus
    the bias: the kernel by its walk over the tiles, the reference by its one sweep. -/
theorem algebraic : Cert.algebraic_KernelIdeal_ReferenceIdeal := by
  intro m ρ m' ρ' _ hagree
  refine ⟨fun c => Cert.KernelIdeal.Walk.result m c, Cert.KernelIdeal.Walk.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  funext i
  exact Cert.RefTotal.result_apply _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
